-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩

class Facts : Prop where
  bcast_S_S4x65536x256 : S_.BroadcastsInDim S4x65536x256 (![] : Fin 0 → Fin S4x65536x256.rank)
  reducesTo_S4x65536x256_S_d0_1_2 : S4x65536x256.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S1x256x256 : S_.BroadcastsInDim S1x256x256 (![] : Fin 0 → Fin S1x256x256.rank)
  reducesTo_S1x256x256_S_d0_1_2 : S1x256x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x65536x256 .f32) (main_arg1 : FVec F S4x512 .f32) (main_arg2 : FVec F S1x256x256 .f32) (main_arg3 : FVec F S256x512 .f32) (main_arg4 : FVec F S256 .f32) : IVec S_ 1 :=
  let main_v0 : FVec F S4x65536x256 .f32 := Host.absf main_arg0
  let main_cst : FVec F S_ .f32 := constant S_ .f32 0x7F800000#32
  let main_v1 : FVec F S4x65536x256 .f32 := broadcastInDim S4x65536x256 ![] bcast_S_S4x65536x256 main_cst
  let main_v2 : IVec S4x65536x256 1 := cmpf .olt main_v0 main_v1
  let main_c : IVec S_ 1 := constantI S_ 1 1#1
  let main_v3 : IVec S_ 1 := (fun x v => Host.reduce IntOp.andi x v reducesTo_S4x65536x256_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S1x256x256 .f32 := Host.absf main_arg2
  let main_cst_2 : FVec F S_ .f32 := constant S_ .f32 0x7F800000#32
  let main_v10 : FVec F S1x256x256 .f32 := broadcastInDim S1x256x256 ![] bcast_S_S1x256x256 main_cst_2
  let main_v11 : IVec S1x256x256 1 := cmpf .olt main_v9 main_v10
  let main_c_3 : IVec S_ 1 := constantI S_ 1 1#1
  let main_v12 : IVec S_ 1 := (fun x v => Host.reduce IntOp.andi x v reducesTo_S1x256x256_S_d0_1_2 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S4x256 : Shape := ⟨2, ![4, 256]⟩
abbrev S1x256 : Shape := ⟨2, ![1, 256]⟩
abbrev S4x256x1 : Shape := ⟨3, ![4, 256, 1]⟩
abbrev S4x256x256 : Shape := ⟨3, ![4, 256, 256]⟩
abbrev S4x1x256 : Shape := ⟨3, ![4, 1, 256]⟩
abbrev S1x4096x256 : Shape := ⟨3, ![1, 4096, 256]⟩
abbrev S4096x256 : Shape := ⟨2, ![4096, 256]⟩
abbrev S256x256 : Shape := ⟨2, ![256, 256]⟩

abbrev nBuf : Space → Nat
  | .hbm => 34
  | .vmem => 6
  | .smem => 0
  | _ => 0

abbrev bufTy : (tb : Table) → Fin (tcTables nBuf tb) → BufTy
  | .hbm, ⟨0, _⟩ => ⟨S4x65536x256, .f32⟩
  | .hbm, ⟨1, _⟩ => ⟨S4x512, .f32⟩
  | .hbm, ⟨2, _⟩ => ⟨S1x256x256, .f32⟩
  | .hbm, ⟨3, _⟩ => ⟨S256x512, .f32⟩
  | .hbm, ⟨4, _⟩ => ⟨S256, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S4x256, .f32⟩
  | .hbm, ⟨10, _⟩ => ⟨S1x256, .f32⟩
  | .hbm, ⟨11, _⟩ => ⟨S4x256, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S4x1x256, .f32⟩
  | .hbm, ⟨31, _⟩ => ⟨S4x256x256, .f32⟩
  | .hbm, ⟨32, _⟩ => ⟨S4x256x256, .f32⟩
  | .hbm, ⟨33, _⟩ => ⟨S4x65536x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | .local _ .vmem, ⟨4, _⟩ => ⟨S1x4096x256, .f32⟩
  | .local _ .vmem, ⟨5, _⟩ => ⟨S1x4096x256, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S_S1x256x256 : S_.BroadcastsInDim S1x256x256 (![] : Fin 0 → Fin S1x256x256.rank)
  bcast_S1x256x256_S4x256x256_0_1_2 : S1x256x256.BroadcastsInDim S4x256x256 (![0, 1, 2] : Fin 3 → Fin S4x256x256.rank)
  bcast_S4x256x1_S4x256x256_0_1_2 : S4x256x1.BroadcastsInDim S4x256x256 (![0, 1, 2] : Fin 3 → Fin S4x256x256.rank)
  reducesTo_S4x256x256_S4x256_d1 : S4x256x256.ReducesTo [1] S4x256
  h_S_ : 0 < S_.numel
  bcast_S_S4x256 : S_.BroadcastsInDim S4x256 (![] : Fin 0 → Fin S4x256.rank)
  bcast_S4x256_S4x1x256_0_2 : S4x256.BroadcastsInDim S4x1x256 (![0, 2] : Fin 2 → Fin S4x1x256.rank)
  bcast_S4x1x256_S4x256x256_0_1_2 : S4x1x256.BroadcastsInDim S4x256x256 (![0, 1, 2] : Fin 3 → Fin S4x256x256.rank)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S4096x256_S1x4096x256 : S4096x256.ShapeCasts S1x4096x256
  dot_S4x512_S512x256_S4x256_1_0_0_1_n_n_wf : DotDims.WF S4x512 S512x256 S4x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x65536x256.size a
  hwx0_0 : ∀ i : grid0.Coords, EltTy.bits .f32 = 32 ∨ (Rect.block (s := S4x65536x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S4x256x256.size a
  hwx0_1 : ∀ i : grid0.Coords, EltTy.bits .f32 = 32 ∨ (Rect.block (s := S4x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x65536x256.size a
  hwx0_2 : ∀ i : grid0.Coords, EltTy.bits .f32 = 32 ∨ (Rect.block (s := S4x65536x256) S1x4096x256.size (cc0_transform_2 i) (hinb0_2 i)).WholeWords (EltTy.packing .f32)

variable [Facts₀]

def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S4x256 : Shape := ⟨2, ![4, 256]⟩
abbrev S1x256 : Shape := ⟨2, ![1, 256]⟩
abbrev S4x256x1 : Shape := ⟨3, ![4, 256, 1]⟩
abbrev S4x256x256 : Shape := ⟨3, ![4, 256, 256]⟩
abbrev S4x1x256 : Shape := ⟨3, ![4, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S4x512, .f32⟩
  | .hbm, ⟨2, _⟩ => ⟨S1x256x256, .f32⟩
  | .hbm, ⟨3, _⟩ => ⟨S256x512, .f32⟩
  | .hbm, ⟨4, _⟩ => ⟨S256, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S4x256, .f32⟩
  | .hbm, ⟨10, _⟩ => ⟨S1x256, .f32⟩
  | .hbm, ⟨11, _⟩ => ⟨S4x256, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S4x1x256, .f32⟩
  | .hbm, ⟨31, _⟩ => ⟨S4x256x256, .f32⟩
  | .hbm, ⟨32, _⟩ => ⟨S4x256x256, .f32⟩
  | .hbm, ⟨33, _⟩ => ⟨S4x65536x256, .f32⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S_S1x256x256 : S_.BroadcastsInDim S1x256x256 (![] : Fin 0 → Fin S1x256x256.rank)
  bcast_S1x256x256_S4x256x256_0_1_2 : S1x256x256.BroadcastsInDim S4x256x256 (![0, 1, 2] : Fin 3 → Fin S4x256x256.rank)
  bcast_S4x256x1_S4x256x256_0_1_2 : S4x256x1.BroadcastsInDim S4x256x256 (![0, 1, 2] : Fin 3 → Fin S4x256x256.rank)
  reducesTo_S4x256x256_S4x256_d1 : S4x256x256.ReducesTo [1] S4x256
  h_S_ : 0 < S_.numel
  bcast_S_S4x256 : S_.BroadcastsInDim S4x256 (![] : Fin 0 → Fin S4x256.rank)
  bcast_S4x256_S4x1x256_0_2 : S4x256.BroadcastsInDim S4x1x256 (![0, 2] : Fin 2 → Fin S4x1x256.rank)
  bcast_S4x1x256_S4x256x256_0_1_2 : S4x1x256.BroadcastsInDim S4x256x256 (![0, 1, 2] : Fin 3 → Fin S4x256x256.rank)
  dot_S4x512_S512x256_S4x256_1_0_0_1_n_n_wf : DotDims.WF S4x512 S512x256 S4x256 [1] [0] [0] [1] [] []
  dot_S4x65536x256_S4x256x256_S4x65536x256_2_1_1_2_0_0_wf : DotDims.WF S4x65536x256 S4x256x256 S4x65536x256 [2] [1] [1] [2] [0] [0]

variable [Facts₀]

def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def dot_S4x65536x256_S4x256x256_S4x65536x256_2_1_1_2_0_0 : DotDims S4x65536x256 S4x256x256 S4x65536x256 where
  lhsContracting := [2]
  rhsContracting := [1]
  lhsNonContracting := [1]
  rhsNonContracting := [2]
  lhsBatch := [0]
  rhsBatch := [0]
  wf := dot_S4x65536x256_S4x256x256_S4x65536x256_2_1_1_2_0_0_wf

class Facts : Prop extends Facts₀ where

variable [Facts]
-- ==== Proof.BatchedProduct.lean ====
/-
  The batched matrix product, as one function of its two operands.

  For `x` of shape [4, 65536, 256] and `w` of shape [4, 256, 256], the product has at (b, n, o) the sum over the
  256 channels `c` of `x (b, n, c) * w (b, c, o)`: sample `b`'s rows times sample `b`'s own weight matrix. Over the
  extended reals the sum is a sum in a commutative monoid, so it does not depend on the order or the grouping in which
  a program adds its 256 terms, and nothing here asks the entries to be finite.
-/
import Idealize.ShloMosaic.PureOps.Ideal.Laws
import Idealize.ShloMosaic.Lib.ValueIdx

noncomputable section

open scoped BigOperators

namespace Cert.BatchedProduct

open Idealize.ShloMosaic Idealize.ShloMosaic.ValueIdx

/-- The shape of the rows, and of the product. -/
abbrev SX : Shape := ⟨3, ![4, 65536, 256]⟩
/-- The shape of the per-sample weights. -/
abbrev SW : Shape := ⟨3, ![4, 256, 256]⟩

/-- The rows' entry of sample `b`, row `n`, channel `c`. -/
abbrev rowAt (b : Fin 4) (n : Fin 65536) (c : Fin 256) : SX.Idx := ix3 b n c
/-- The weights' entry of sample `b`, input channel `c`, output channel `o`. -/
abbrev weightAt (b : Fin 4) (c : Fin 256) (o : Fin 256) : SW.Idx := ix3 b c o

/-- The batched product: at (b, n, o) the sum over the channels `c` of `x (b, n, c) * w (b, c, o)`. -/
def bmm (x : FVec Ideal SX .f32) (w : FVec Ideal SW .f32) : FVec Ideal SX .f32 :=
  fun i => ∑ c : Fin 256, x (rowAt (i 0) (i 1) c) * w (weightAt (i 0) c (i 2))

theorem bmm_apply (x : FVec Ideal SX .f32) (w : FVec Ideal SW .f32) (i : SX.Idx) :
    bmm x w i = ∑ c : Fin 256, x (rowAt (i 0) (i 1) c) * w (weightAt (i 0) c (i 2)) := rfl

end Cert.BatchedProduct

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.BlockProduct.lean ====
/-
  What the kernel body computes from its two loaded blocks, entry by entry.

  The body loads a [1, 4096, 256] block of rows and a [1, 256, 256] block of weights, drops the unit axis of each, changes
  both to bf16 (no change of value over the extended reals), multiplies them into a zero accumulator, and puts the unit
  axis back. So the stored block has at (0, p, o) the sum over the 256 channels `c` of rows (0, p, c) * weights (0, c, o).
-/
import proofs.«169905_j34445637714486_1_alg».proof.Proof.Gen.KernelIdeal.Skeleton
import proofs.«169905_j34445637714486_1_alg».proof.Proof.LibContraction
import Idealize.ShloMosaic.Lib.ValueLayout
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx Cert.Lib.Contraction

/-- The body's product: [4096, 256] by [256, 256], the left operand's axis 1 against the right's axis 0. -/
abbrev D := dot_S4096x256_S256x256_S4096x256_1_0_0_1_n_n

/-- At the position `c` of the contraction, the left operand is read at row `p`, channel `c`. -/
theorem lhs_at (p : Fin 4096) (o : Fin 256) (c : Fin 256) :
    D.lhsIdx (ix2 p o) ((contrFin D rfl 256 rfl).symm c) = ix2 p c :=
  funext fun a => Fin.ext (by
    match a with
    | ⟨0, _⟩ => exact lhs_free D rfl rfl (ix2 p o) _ (by decide)
    | ⟨1, _⟩ => exact lhs_contracted D rfl 256 rfl (ix2 p o) c)

/-- and the right operand at channel `c`, column `o`. -/
theorem rhs_at (p : Fin 4096) (o : Fin 256) (c : Fin 256) :
    D.rhsIdx (ix2 p o) ((contrFin D rfl 256 rfl).symm c) = ix2 c o :=
  funext fun a => Fin.ext (by
    match a with
    | ⟨0, _⟩ => exact rhs_contracted D rfl rfl 256 rfl (ix2 p o) c
    | ⟨1, _⟩ => exact rhs_free D rfl rfl rfl rfl (ix2 p o) _ (by decide))

/-- The product of two [.., ..] matrices into the zero accumulator, at (p, o): the sum over the channels. -/
theorem product_apply (a : FVec Ideal S4096x256 .bf16) (b : FVec Ideal S256x256 .bf16) (p : Fin 4096) (o : Fin 256) :
    matmul (F := Ideal) D none a b (constant S4096x256 .f32 0x00000000#32) (ix2 p o) = ∑ c : Fin 256, a (ix2 p c) * b (ix2 c o) := by
  simp only [matmul]
  rw [Ideal.matmul_constant_zero_apply, sum_contr D rfl 256 rfl]
  refine Finset.sum_congr rfl fun c _ => ?_
  rw [lhs_at, rhs_at]

/-- The stored block at (u, p, o), `u` the unit axis's one position: the sum over the channels `c` of the rows' block at
    (0, p, c) times the weights' block at (0, c, o). -/
theorem payload_apply (rows : Vec Ideal S1x4096x256 .f32) (wts : Vec Ideal S1x256x256 .f32) (u : Fin 1) (p : Fin 4096) (o : Fin 256) :
    k0_pay1 (F := Ideal) rows wts (ix3 u p o) = ∑ c : Fin 256, rows (ix3 (0 : Fin 1) p c) * wts (ix3 (0 : Fin 1) c o) := by
  unfold k0_pay1
  refine (shapeCast_ab_1ab_apply _ _ u p o).trans ?_
  refine (product_apply _ _ p o).trans ?_
  refine Finset.sum_congr rfl fun c _ => ?_
  rw [truncf_apply, truncf_apply, shapeCast_1ab_ab_apply, shapeCast_1ab_ab_apply]

/-- The same at any index of the block. -/
theorem payload_at (rows : Vec Ideal S1x4096x256 .f32) (wts : Vec Ideal S1x256x256 .f32) (y : S1x4096x256.Idx) :
    k0_pay1 (F := Ideal) rows wts y = ∑ c : Fin 256, rows (ix3 (0 : Fin 1) (y 1) c) * wts (ix3 (0 : Fin 1) c (y 2)) := by
  obtain ⟨u, p, o, rfl⟩ : ∃ (u : Fin 1) (p : Fin 4096) (o : Fin 256), y = ix3 u p o := ⟨y 0, y 1, y 2, eq_ix3 y⟩
  exact payload_apply rows wts u p o

end Cert.KernelIdeal.BlockProduct

end
-- ==== Proof.ModulatedWeight.lean ====
/-
  The weights the kernel region finds are the reference's modulated weights.

  Before its one region the kernel's @main runs 28 host operations: the style vector through a scaled linear map plus a
  bias, plus one; the shared weight scaled and multiplied by that per-sample factor; then divided by the root of the sum
  of its squares over the input channels (plus a small constant). The reference's @main begins with the same 28
  operations, literal for literal, and names their result `val_main_v22` as a function of the four small arguments. So
  the array the region's second window stages is that function of the kernel's own arguments; the operations are never
  opened, only set side by side.
-/
import proofs.«169905_j34445637714486_1_alg».proof.Proof.Gen.KernelIdeal.Frame
import proofs.«169905_j34445637714486_1_alg».proof.Proof.Gen.ReferenceIdeal.Read
import Idealize.ShloMosaic.Lib.StableHlo.Run

noncomputable section

namespace Cert.KernelIdeal.ModulatedWeight

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The per-sample weights as a function of the style, the shared weight, the linear map and its bias: the reference's
    own name for the result of the shared host operations. -/
abbrev weights (c : Dev nD) : (⟨S4x256x256, .f32⟩ : BufTy).Contents (Elt Ideal) :=
  Cert.ReferenceIdeal.Read.val_main_v22 (F := Ideal) (m ((c : Thread nD τ).loc main_arg1)) (m ((c : Thread nD τ).loc main_arg2))
    (m ((c : Thread nD τ).loc main_arg3)) (m ((c : Thread nD τ).loc main_arg4))

set_option maxHeartbeats 2000000 in
/-- What the region's second window stages: the host operations' result, which is `weights`. -/
theorem staged_weights (c : Dev nD) :
    (V m c main_v22 : (⟨S4x256x256, .f32⟩ : BufTy).Contents (Elt Ideal)) = weights m c := by
  dsimp only [Gen.V, Gen.hostOps0]
  after_results
  rfl

end Cert.KernelIdeal.ModulatedWeight

end
-- ==== Proof.WholeProduct.lean ====
/-
  From the blocks the grid points write to the whole result array.

  The grid has 4 x 16 points. Point (b, j) stages rows j*4096 .. j*4096+4095 of sample b (all 256 channels) and all of
  sample b's 256 x 256 weights, and writes back the same rows of sample b's result (all 256 output channels). By the
  body's arithmetic the block it writes is the batched product's block: entry (0, p, o) of the block is the sum over the
  channels c of rows (b, j*4096 + p, c) * weights (b, c, o), which is the product at (b, j*4096 + p, o). Every index
  (b, n, o) of the result lies in the block of point (b, n / 4096), so after the run the whole array is the batched
  product of the rows and the weights as the region found them; the rows are the kernel's first argument unchanged and
  the weights are the modulated weights.
-/
import proofs.«169905_j34445637714486_1_alg».proof.Proof.Gen.KernelIdeal.Value
import proofs.«169905_j34445637714486_1_alg».proof.Proof.BatchedProduct
import proofs.«169905_j34445637714486_1_alg».proof.Proof.BlockProduct
import proofs.«169905_j34445637714486_1_alg».proof.Proof.ModulatedWeight
import Idealize.ShloMosaic.Lib.Pipeline.Value

noncomputable section

open scoped BigOperators

namespace Cert.KernelIdeal.WholeProduct

open Cert.KernelIdeal Cert.KernelIdeal.Gen Idealize.ShloMosaic Idealize.ShloMosaic.TcCoe Idealize.SL.Sem
open Idealize.ShloMosaic.ValueIdx Cert.BatchedProduct Cert.KernelIdeal.ModulatedWeight
open Idealize.ShloMosaic.Pipeline (Dat)

variable (m : (ℓ : Loc nD τ sig) → Buf (Elt Ideal) ℓ) (ρ : Dev nD → PrngReg)

/-- The rows as the region finds them, at their literal shape. -/
abbrev rowsFound (c : Dev nD) : FVec Ideal SX .f32 := V m c main_arg0
/-- The weights as the region finds them, at their literal shape. -/
abbrev weightsFound (c : Dev nD) : FVec Ideal SW .f32 := V m c main_v22

/-- The body's loads and its store start at the origin of their buffers. -/
theorem origin : (![0, 0, 0] : Fin 3 → Nat) = fun _ => 0 := funext fun a => by fin_cases a <;> rfl

/-- The printed index maps, decided over the 64 points: the rows' window moves with the result's on the sample and
    row-block axes; the weights' window follows the sample only; no window moves along the channels. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (sample, row-block) pair is some point's. -/
theorem every_block : ∀ (b : Fin 4) (j : Fin 16), ∃ t : Fin cfg0.N, win0_2.index t = ![b.val, j.val, 0] :=
  (by decide +kernel : ∀ (b : Fin 4) (j : Fin 16), ∃ t : Fin grid0.N, win0_2.index t = ![b.val, j.val, 0])

/-- What point `t` writes back is block `t` of the batched product of the rows and the weights as the region finds
    them. -/
theorem written_block (c : Dev nD) (t : Fin cfg0.N) :
    (dats m 0 c).flushed 2 t = ((cfg0.win 2).blk t).view.read (Elt Ideal) (bmm (V m c main_arg0) (V m c main_v22)) := by
  rw [Value.flushed2]
  unfold out0_2
  rw [View.canon_unit_zero origin]
  simp only [View.ld_unit_zero (S := S1x4096x256) origin, View.ld_unit_zero (S := S1x256x256) origin]
  obtain ⟨r0, r1, r2, w0, w1, w2, o2⟩ := block_indices t
  funext j
  show k0_pay1 (F := Ideal) (iblk m c 0 t) (iblk m c 1 t) j = bmm (V m c main_arg0) (V m c main_v22) (((cfg0.win 2).blk t).view.emb j)
  refine (BlockProduct.payload_at (iblk m c 0 t) (iblk m c 1 t) j).trans ?_
  rw [bmm_apply]
  refine Finset.sum_congr rfl fun k _ => ?_
  show rowsFound m c (((cfg0.win 0).blk t).view.emb (ix3 (0 : Fin 1) (j 1) k)) * weightsFound m c (((cfg0.win 1).blk t).view.emb (ix3 (0 : Fin 1) k (j 2)))
    = rowsFound m c (rowAt ((((cfg0.win 2).blk t).view.emb j) 0) ((((cfg0.win 2).blk t).view.emb j) 1) k)
      * weightsFound m c (weightAt ((((cfg0.win 2).blk t).view.emb j) 0) k ((((cfg0.win 2).blk t).view.emb j) 2))
  have hj0 : (j 0).val < 1 := (j 0).isLt
  have hrow : ((cfg0.win 0).blk t).view.emb (ix3 (0 : Fin 1) (j 1) k)
      = rowAt ((((cfg0.win 2).blk t).view.emb j) 0) ((((cfg0.win 2).blk t).view.emb j) 1) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 4096 + 1 * (j 1).val = win0_2.index t (1 : Fin 3) * 4096 + 1 * (j 1).val; omega
    | ⟨2, _⟩ => show win0_0.index t (2 : Fin 3) * 256 + 1 * k.val = k.val; omega
  have hwt : ((cfg0.win 1).blk t).view.emb (ix3 (0 : Fin 1) k (j 2))
      = weightAt ((((cfg0.win 2).blk t).view.emb j) 0) k ((((cfg0.win 2).blk t).view.emb j) 2) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 256 + 1 * k.val = k.val; omega
    | ⟨2, _⟩ => show win0_1.index t (2 : Fin 3) * 256 + 1 * (j 2).val = win0_2.index t (2 : Fin 3) * 256 + 1 * (j 2).val; omega
  rw [hrow, hwt]

/-- An index of the result is in point `t`'s block iff each coordinate is in the block's range on its axis. -/
theorem mem_block (t : Fin cfg0.N) (i : S4x65536x256.Idx) :
    i ∈ ((cfg0.win 2).blk t).view.set ↔ ∀ a : Fin 3, win0_2.index t a * S1x4096x256.size a ≤ (i a).val ∧ (i a).val < win0_2.index t a * S1x4096x256.size a + S1x4096x256.size a := by
  show i ∈ ((View.whole main_v23).slice (win0_2.rect t)).set ↔ _
  rw [View.set_slice_whole, Rect.mem_set_unit]
  exact Iff.rfl

/-- Every index (b, n, o) of the result is in the block of the point of sample `b` and row block `n / 4096`. -/
theorem covered (i : S4x65536x256.Idx) :
    ∃ t : Fin cfg0.N, (cfg0.win 2).flush t = true ∧ i ∈ ((cfg0.win 2).blk t).view.set := by
  have hi0 : (i 0).val < 4 := (i 0).isLt
  have hi1 : (i 1).val < 65536 := (i 1).isLt
  have hi2 : (i 2).val < 256 := (i 2).isLt
  obtain ⟨t, ht⟩ := every_block ⟨(i 0).val, hi0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-- The result array after the run: the batched product of the kernel's first argument and the modulated weights. -/
theorem product_array (c : Dev nD) :
    (dats m 0 c).arrAt 2 cfg0.N = bmm (m ((c : Thread nD τ).loc main_arg0)) (weights m c) :=
  ((dats m 0 c).arrAt_eq_of_cover 2 (bmm (V m c main_arg0) (V m c main_v22)) (fun t _ => written_block m c t) covered).trans
    (congrArg₂ bmm (V_main_arg0 m c) (staged_weights m c))

/-- The kernel's run: every weakly fair execution ends with the result at the batched product and the arguments
    unchanged. -/
theorem run : θ_run defs (onTc (τ := τ) (main (F := Ideal))) ⟨m, fun _ => 0, ρ⟩ fun r => ∀ c : Dev nD,
      r.2.mem ((c : Thread nD τ).loc main_v23) = bmm (m ((c : Thread nD τ).loc main_arg0)) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (product_array m c), (h c).2⟩) (Value.run_blocks m ρ)

end Cert.KernelIdeal.WholeProduct

end
-- ==== Proof.ReferenceProduct.lean ====
/-
  The reference's last operation is the batched product.

  The reference contracts the rows' channel axis against the weights' input-channel axis, sample by sample: its result at
  (b, n, o) is the sum over the 256 channels c of rows (b, n, c) * weights (b, c, o), the weights being its own modulated
  weights. That is the batched product of the specification, term for term.
-/
import proofs.«169905_j34445637714486_1_alg».proof.Proof.Gen.ReferenceIdeal.Read
import proofs.«169905_j34445637714486_1_alg».proof.Proof.BatchedProduct

noncomputable section

open scoped BigOperators

namespace Cert.ReferenceIdeal.RefValue

open Cert.ReferenceIdeal Cert.ReferenceIdeal.Gen Cert.ReferenceIdeal.Read Idealize.ShloMosaic Idealize.ShloMosaic.ValueIdx Cert.BatchedProduct

/-- The rows' entry the contraction reads at position `c`: sample and row of the result's index, channel `c`. -/
theorem row_read (i : S4x65536x256.Idx) (c : Fin 256) : lidx_main_v23 i c = rowAt (i 0) (i 1) c :=
  funext fun a => by match a with | ⟨0, _⟩ => rfl | ⟨1, _⟩ => rfl | ⟨2, _⟩ => rfl

/-- The weights' entry it reads there: the result's sample, input channel `c`, the result's output channel. -/
theorem weight_read (i : S4x65536x256.Idx) (c : Fin 256) : ridx_main_v23 i c = weightAt (i 0) c (i 2) :=
  funext fun a => by match a with | ⟨0, _⟩ => rfl | ⟨1, _⟩ => rfl | ⟨2, _⟩ => rfl

/-- The reference's result is the batched product of its first argument and its modulated weights. -/
theorem result_is_product (x0 : (⟨S4x65536x256, .f32⟩ : BufTy).Contents (Elt Ideal)) (x1 : (⟨S4x512, .f32⟩ : BufTy).Contents (Elt Ideal))
    (x2 : (⟨S1x256x256, .f32⟩ : BufTy).Contents (Elt Ideal)) (x3 : (⟨S256x512, .f32⟩ : BufTy).Contents (Elt Ideal))
    (x4 : (⟨S256, .f32⟩ : BufTy).Contents (Elt Ideal)) :
    val_main_v23 (F := Ideal) x0 x1 x2 x3 x4 = bmm x0 (val_main_v22 (F := Ideal) x1 x2 x3 x4) := by
  funext i
  rw [val_main_v23_apply, bmm_apply]
  refine Finset.sum_congr rfl fun c _ => ?_
  rw [row_read, weight_read]

end Cert.ReferenceIdeal.RefValue

end
-- ==== Proof.lean ====
/-
  A per-sample modulated and demodulated 256 x 256 weight applied to 65536 rows of 256 channels, for 4 samples: the
  kernel's grid of block products against the reference's one batched contraction, equal over the extended reals.

  Both programs first compute the same per-sample weights from the four small arguments, by the same 28 host
  operations with the same constants. The reference then contracts the rows with the weights in one batched product.
  The kernel runs a 4 x 16 grid; point (b, j) multiplies rows j*4096 .. j*4096+4095 of sample b by sample b's weights
  (both cast to bf16, which changes no value here, into a zero accumulator) and writes those rows of the result. Entry
  by entry, each side is the sum over the 256 channels c of x (b, n, c) * w (b, c, o); the blocks the grid writes tile
  the result. A sum over a finite set in the extended reals does not depend on how its terms are ordered or grouped,
  so the two results are equal with no appeal to finiteness of the inputs.

  The kernel's frames are the generated ones; the reference's frame is its generated run with the result dropped; the
  idealization rewrote nothing, so there is nothing to preserve.
-/
import proofs.«169905_j34445637714486_1_alg».proof.Defs
import proofs.«169905_j34445637714486_1_alg».proof.Proof.Gen.Kernel
import proofs.«169905_j34445637714486_1_alg».proof.Proof.Gen.Kernel.Skeleton
import proofs.«169905_j34445637714486_1_alg».proof.Proof.Gen.Kernel.Launch
import proofs.«169905_j34445637714486_1_alg».proof.Proof.Gen.Kernel.Points
import proofs.«169905_j34445637714486_1_alg».proof.Proof.Gen.Kernel.Frame
import proofs.«169905_j34445637714486_1_alg».proof.Proof.Gen.KernelIdeal
import proofs.«169905_j34445637714486_1_alg».proof.Proof.Gen.KernelIdeal.Skeleton
import proofs.«169905_j34445637714486_1_alg».proof.Proof.Gen.KernelIdeal.Launch
import proofs.«169905_j34445637714486_1_alg».proof.Proof.Gen.KernelIdeal.Points
import proofs.«169905_j34445637714486_1_alg».proof.Proof.Gen.KernelIdeal.Frame
import proofs.«169905_j34445637714486_1_alg».proof.Proof.Gen.ReferenceIdeal
import proofs.«169905_j34445637714486_1_alg».proof.Proof.Gen.Pre_finite_inputs
import proofs.«169905_j34445637714486_1_alg».proof.Proof.Gen.KernelIdeal.Value
import proofs.«169905_j34445637714486_1_alg».proof.Proof.Gen.ReferenceIdeal.Run
import proofs.«169905_j34445637714486_1_alg».proof.Proof.Gen.ReferenceIdeal.Read
import proofs.«169905_j34445637714486_1_alg».proof.Proof.BatchedProduct
import proofs.«169905_j34445637714486_1_alg».proof.Proof.WholeProduct
import proofs.«169905_j34445637714486_1_alg».proof.Proof.ReferenceProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel region: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the batched product of the rows and the modulated weights of the shared arguments. -/
theorem algebraic : Cert.algebraic_KernelIdeal_ReferenceIdeal := by
  intro m ρ m' ρ' _ hagree
  refine ⟨fun c => Cert.BatchedProduct.bmm (m ((c : Thread Cert.KernelIdeal.nD Cert.KernelIdeal.τ).loc Cert.KernelIdeal.main_arg0))
    (Cert.KernelIdeal.ModulatedWeight.weights m c), Cert.KernelIdeal.WholeProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_is_product,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
